-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) (main_arg3 : IVec S4096x4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S1x4096, .f32⟩
  | .hbm, ⟨5, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .i32⟩
  | .local _ .vmem, ⟨5, _⟩ => ⟨S1024x512, .i32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .i32 = 32 ∨ (Rect.block (s := S4096x4096) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S1x4096, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Pieces.lean ====
/-
  What one run of the kernel body leaves behind, as values. The body has three control cases:

    first step of a contraction  (k = 0):      the accumulator is zeroed, read back, and one slab is added;
    middle steps                 (0 < k < 7):  one slab is added to what the step before left;
    last step                    (k = 7):      one slab is added, and the output block is the accumulator minus
                                               the bias row.

  Every load and store goes through the whole buffer, so what a case leaves in a buffer is the value of its last
  store there, with each load replaced by the contents it reads: the block of the effective weight's factors, the
  block of `x`, and the accumulator.
-/
import proofs.«130774_j4449586118868_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The whole-buffer rectangle starts at the origin. -/
theorem origin : (![0, 0] : Fin 2 → Nat) = fun _ => 0 := funext fun a => by fin_cases a <;> rfl

/-- First step: the accumulator ends at zero plus the slab. -/
theorem acc_first (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i) (x0 : Vec F S1024x512 .f32) (x1 : Vec F S1024x512 .f32) (x2 : Vec F S1024x512 .i32) (x3 : Vec F S1x1024 .f32) :
    sout0_A_0 c i a3 h3 a4 h4 a5 h5 a6 h6 a7 h7 a8 h8 hc0 hc1 x0 x1 x2 x3 = k0_pay2 x1 x2 x0 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) origin, View.readCov_unit_zero (S := S1024x1024) _ origin]
  simp only [View.readAt_eq_ld, h3.read_unread, h4.read_unread, h5.read_unread, View.ld_unit_zero (S := S1024x512) origin]

/-- Middle step: the accumulator ends at what it held plus the slab. -/
theorem acc_middle (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i) (x0 : Vec F S1024x512 .f32) (x1 : Vec F S1024x512 .f32) (x2 : Vec F S1024x512 .i32) (x3 : Vec F S1x1024 .f32) (xs0 : Vec F S1024x1024 .f32) :
    sout0_B_0 c i a3 h3 a4 h4 a5 h5 a6 h6 a7 h7 a8 h8 hc0 hc1 x0 x1 x2 x3 xs0 = k0_pay2 x1 x2 x0 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero (S := S1024x1024) origin]
  simp only [View.readAt_eq_ld, h3.read_unread, h4.read_unread, h5.read_unread, h8.read_unread,
    View.ld_unit_zero (S := S1024x512) origin, View.ld_unit_zero (S := S1024x1024) origin]

/-- Last step: the accumulator likewise, -/
theorem acc_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 : Vec F S1024x512 .f32) (x1 : Vec F S1024x512 .f32) (x2 : Vec F S1024x512 .i32) (x3 : Vec F S1x1024 .f32) (xs0 : Vec F S1024x1024 .f32) :
    sout0_C_0 c i a3 h3 a4 h4 a5 h5 a6 h6 a7 h7 a8 h8 hc0 hc1 x0 x1 x2 x3 xs0 = k0_pay2 x1 x2 x0 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero (S := S1024x1024) origin]
  simp only [View.readAt_eq_ld, h3.read_unread, h4.read_unread, h5.read_unread, h8.read_unread,
    View.ld_unit_zero (S := S1024x512) origin, View.ld_unit_zero (S := S1024x1024) origin]

/-- and the output block is that accumulator minus the bias row. -/
theorem out_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .i32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 : Vec F S1024x512 .f32) (x1 : Vec F S1024x512 .f32) (x2 : Vec F S1024x512 .i32) (x3 : Vec F S1x1024 .f32) (xs0 : Vec F S1024x1024 .f32) :
    out0_C_4 c i a3 h3 a4 h4 a5 h5 a6 h6 a7 h7 a8 h8 hc0 hc1 x0 x1 x2 x3 xs0 = k0_pay3 (k0_pay2 x1 x2 x0 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero (S := S1024x1024) origin, View.readCov_unit_zero (S := S1024x1024) _ origin]
  simp only [View.readAt_eq_ld, h3.read_unread, h4.read_unread, h5.read_unread, h6.read_unread, h8.read_unread,
    View.ld_unit_zero (S := S1024x512) origin, View.ld_unit_zero (S := S1024x1024) origin, View.ld_unit_zero (S := S1x1024) origin]

end Cert.KernelIdeal.Pieces

end
-- ==== Proof.Payloads.lean ====
/-
  The kernel body's three stored values, read at one entry (p, q) of the 1024 × 1024 accumulator block, on the
  extended reals:

    reset       the zero block;
    accumulate  acc[p, q] + Σ_r x[p, r] · (w[q, r] · float(mask[q, r]))     over the 512 columns r of the slab
                (the matrix product contracts the second axis of both operands into a zero accumulator; the
                 narrowing of its operands to bf16 is the identity on the extended reals);
    finish      acc[p, q] − bias[0, q]   (the bias row broadcast down the rows).
-/
import proofs.«130774_j4449586118868_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-- One slab's partial sum for entry (p, q) of the block. -/
def slab (x w : FVec Ideal S1024x512 .f32) (mk : IVec S1024x512 32) (p q : Fin 1024) : EReal :=
  ∑ r : Fin 512, x (ix2 p r) * (w (ix2 q r) * FloatOps.sitofp (F := Ideal) .f32 (mk (ix2 q r)))

/-- The reset stores zero everywhere. -/
theorem reset_apply (j : S1024x1024.Idx) : k0_pay1 (F := Ideal) j = 0 := by
  unfold k0_pay1
  rw [shapeCast_self]
  exact Ideal.ofBits_zero_f32

/-- Left operand of the product: row `p` of the block of `x`; -/
theorem lhs_axis0 (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- its column is the contraction index. -/
theorem lhs_axis1 (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k
/-- Right operand: row `q` of the block of the effective weight (the output's column); -/
theorem rhs_axis0 (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- its column is the contraction index too. -/
theorem rhs_axis1 (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

/-- The product into a zero accumulator, at (p, q): the slab's partial sum. -/
theorem product_apply (a b : FVec Ideal S1024x512 .bf16) (p q : Fin 1024) :
    matmul dot_S1024x512_S1024x512_S1024x1024_1_1_0_0_n_n none a b (constant S1024x1024 .f32 0x00000000#32) (ix2 p q)
      = ∑ r : Fin 512, a (ix2 p r) * b (ix2 q r) := by
  simp only [matmul]
  rw [Ideal.matmul_constant_zero_apply, ← Equiv.sum_comp (contrEquiv1 dot_S1024x512_S1024x512_S1024x1024_1_1_0_0_n_n 512 rfl rfl).symm]
  refine Finset.sum_congr rfl fun r _ => ?_
  have hr := contrEquiv1_symm_val dot_S1024x512_S1024x512_S1024x1024_1_1_0_0_n_n 512 rfl rfl r
  have el : dot_S1024x512_S1024x512_S1024x1024_1_1_0_0_n_n.lhsIdx (ix2 p q) ((contrEquiv1 dot_S1024x512_S1024x512_S1024x1024_1_1_0_0_n_n 512 rfl rfl).symm r) = ix2 p r := funext fun a => Fin.ext (by
    match a with
    | ⟨0, _⟩ => exact lhs_axis0 _ _
    | ⟨1, _⟩ => exact (lhs_axis1 _ _).trans hr)
  have er : dot_S1024x512_S1024x512_S1024x1024_1_1_0_0_n_n.rhsIdx (ix2 p q) ((contrEquiv1 dot_S1024x512_S1024x512_S1024x1024_1_1_0_0_n_n 512 rfl rfl).symm r) = ix2 q r := funext fun a => Fin.ext (by
    match a with
    | ⟨0, _⟩ => exact rhs_axis0 _ _
    | ⟨1, _⟩ => exact (rhs_axis1 _ _).trans hr)
  rw [el, er]

/-- The accumulation step at (p, q). -/
theorem accumulate_apply (w : FVec Ideal S1024x512 .f32) (mk : IVec S1024x512 32) (x : FVec Ideal S1024x512 .f32)
    (acc : FVec Ideal S1024x1024 .f32) (p q : Fin 1024) :
    k0_pay2 (F := Ideal) w mk x acc (ix2 p q) = acc (ix2 p q) + slab x w mk p q := by
  unfold k0_pay2 slab
  rw [shapeCast_self]
  show acc (ix2 p q) + matmul dot_S1024x512_S1024x512_S1024x1024_1_1_0_0_n_n none _ _ (constant S1024x1024 .f32 0x00000000#32) (ix2 p q) = _
  rw [product_apply]
  rfl

/-- The final step at (p, q). -/
theorem finish_apply (acc : FVec Ideal S1024x1024 .f32) (brow : FVec Ideal S1x1024 .f32) (p q : Fin 1024) :
    k0_pay3 (F := Ideal) acc brow (ix2 p q) = acc (ix2 p q) - brow (ix2 0 q) := by
  unfold k0_pay3
  rw [shapeCast_self]
  show acc (ix2 p q) - broadcastTo S1024x1024 brow broadcasts_S1x1024_S1024x1024 (ix2 p q) = _
  rw [broadcastTo_apply brow broadcasts_S1x1024_S1024x1024 (ix2 p q) (ix2 0 q) (fun a => by
    match a with
    | ⟨0, _⟩ => rfl
    | ⟨1, _⟩ => rfl)]

end Cert.KernelIdeal.Payloads

end
-- ==== Proof.Blocks.lean ====
/-
  The windows' blocks as parts of the whole arrays. The grid is 4 × 4 × 8: point `t` is the step `k = t % 8` of the
  contraction for the output tile in tile-row `t / 32` and tile-column `t / 8 % 4`. At that point

    the block of `x`         is rows 1024·(t/32) …,      columns 512·(t%8) … of `x`;
    the blocks of the weight
      and of the mask        are rows 1024·(t/8 % 4) …,   columns 512·(t%8) … of theirs;
    the block of the bias    is columns 1024·(t/8 % 4) … of the bias, laid out as one row;
    the output block         is rows 1024·(t/32) …, columns 1024·(t/8 % 4) … of the result.

  An entry of a block sits in the array at (block index) × (block extent) + (its position inside the block), axis by
  axis.
-/
import proofs.«130774_j4449586118868_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## Which block each window is on at a point -/

theorem index_x : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)

theorem index_w : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)

theorem index_mask : ∀ t : Fin cfg0.N, win0_2.index t 0 = t.val / 8 % 4 ∧ win0_2.index t 1 = t.val % 8 :=
  (by decide +kernel : ∀ t : Fin grid0.N, win0_2.index t 0 = t.val / 8 % 4 ∧ win0_2.index t 1 = t.val % 8)

theorem index_bias : ∀ t : Fin cfg0.N, win0_3.index t 0 = 0 ∧ win0_3.index t 1 = t.val / 8 % 4 :=
  (by decide +kernel : ∀ t : Fin grid0.N, win0_3.index t 0 = 0 ∧ win0_3.index t 1 = t.val / 8 % 4)

theorem index_out : ∀ t : Fin cfg0.N, win0_4.index t 0 = t.val / 32 ∧ win0_4.index t 1 = t.val / 8 % 4 :=
  (by decide +kernel : ∀ t : Fin grid0.N, win0_4.index t 0 = t.val / 32 ∧ win0_4.index t 1 = t.val / 8 % 4)

/-! ## The input blocks, entry by entry -/

/-- Entry (p, r) of the block of `x` at point `t` is `x[1024·(t/32) + p, 512·(t%8) + r]`. -/
theorem x_block (c : Dev nD) (t : Fin cfg0.N) (p : Fin 1024) (r : Fin 512) (b k : Fin 4096)
    (hb : b.val = 1024 * (t.val / 32) + p.val) (hk : k.val = 512 * (t.val % 8) + r.val) :
    (iblk m c 0 t : Vec F S1024x512 .f32) (ix2 p r) = m ((c : Thread nD τ).loc main_arg0) (ix2 b k) := by
  unfold iblk
  rw [View.read_apply]
  show V m c main_arg0 _ = _
  rw [V_main_arg0]
  refine congrArg _ (funext fun a => Fin.ext ?_)
  match a with
  | ⟨0, _⟩ => show win0_0.index t 0 * 1024 + 1 * p.val = b.val; rw [(index_x t).1, hb]; omega
  | ⟨1, _⟩ => show win0_0.index t 1 * 512 + 1 * r.val = k.val; rw [(index_x t).2, hk]; omega

/-- Entry (q, r) of the block of the weight is `w[1024·(t/8 % 4) + q, 512·(t%8) + r]`. -/
theorem w_block (c : Dev nD) (t : Fin cfg0.N) (q : Fin 1024) (r : Fin 512) (o k : Fin 4096)
    (ho : o.val = 1024 * (t.val / 8 % 4) + q.val) (hk : k.val = 512 * (t.val % 8) + r.val) :
    (iblk m c 1 t : Vec F S1024x512 .f32) (ix2 q r) = m ((c : Thread nD τ).loc main_arg1) (ix2 o k) := by
  unfold iblk
  rw [View.read_apply]
  show V m c main_arg1 _ = _
  rw [V_main_arg1]
  refine congrArg _ (funext fun a => Fin.ext ?_)
  match a with
  | ⟨0, _⟩ => show win0_1.index t 0 * 1024 + 1 * q.val = o.val; rw [(index_w t).1, ho]; omega
  | ⟨1, _⟩ => show win0_1.index t 1 * 512 + 1 * r.val = k.val; rw [(index_w t).2, hk]; omega

/-- The block of the mask, the same part of the mask. -/
theorem mask_block (c : Dev nD) (t : Fin cfg0.N) (q : Fin 1024) (r : Fin 512) (o k : Fin 4096)
    (ho : o.val = 1024 * (t.val / 8 % 4) + q.val) (hk : k.val = 512 * (t.val % 8) + r.val) :
    (iblk m c 2 t : Vec F S1024x512 .i32) (ix2 q r) = m ((c : Thread nD τ).loc main_arg3) (ix2 o k) := by
  unfold iblk
  rw [View.read_apply]
  show V m c main_arg3 _ = _
  rw [V_main_arg3]
  refine congrArg _ (funext fun a => Fin.ext ?_)
  match a with
  | ⟨0, _⟩ => show win0_2.index t 0 * 1024 + 1 * q.val = o.val; rw [(index_mask t).1, ho]; omega
  | ⟨1, _⟩ => show win0_2.index t 1 * 512 + 1 * r.val = k.val; rw [(index_mask t).2, hk]; omega

/-- The bias reaches the kernel as one row of 4096: the host reshape keeps each entry at its position. -/
theorem bias_row (c : Dev nD) :
    (V m c main_v0 : S1x4096.Idx → F .f32) = shapeCast S1x4096 (m ((c : Thread nD τ).loc main_arg2)) shapeCasts_S4096_S1x4096 := by
  dsimp only [V, hostOps0]; after_results; rfl

/-- Entry (0, q) of the block of the bias row is `bias[1024·(t/8 % 4) + q]`. -/
theorem bias_block (c : Dev nD) (t : Fin cfg0.N) (q : Fin 1024) (o : Fin 4096)
    (ho : o.val = 1024 * (t.val / 8 % 4) + q.val) :
    (iblk m c 3 t : Vec F S1x1024 .f32) (ix2 0 q) = m ((c : Thread nD τ).loc main_arg2) (ix1 o) := by
  unfold iblk
  rw [View.read_apply]
  show (V m c main_v0 : S1x4096.Idx → F .f32) _ = _
  rw [bias_row]
  refine shapeCast_apply _ _ _ (ix1 o) ?_
  rw [Shape.rowMajor_val_one, Shape.rowMajor_val_two]
  show o.val = (win0_3.index t 0 * 1 + 1 * 0) * 4096 + (win0_3.index t 1 * 1024 + 1 * q.val)
  rw [(index_bias t).1, (index_bias t).2, ho]; omega

end Cert.KernelIdeal.Blocks

end
-- ==== Proof.LibBlockedSum.lean ====
/-
  Sums cut into consecutive blocks. A contraction of length `K * n` that is accumulated block by block — first the
  indices `0 … K - 1`, then `K … 2K - 1`, and so on — adds up the same terms as the contraction taken whole, because
  addition in a commutative monoid is associative; nothing else is used, so the statements hold on the extended reals
  with their infinities as they do on the reals.
-/
import Mathlib.Algebra.BigOperators.Group.Finset.Basic
import Mathlib.Algebra.BigOperators.Fin

namespace BlockedSum

open Finset

variable {M : Type*} [AddCommMonoid M]

/-- The first `n` blocks of `K` consecutive naturals are the first `K * n` naturals: summing block by block is
    summing at once. -/
theorem sum_range_blocks (g : ℕ → M) (K : ℕ) :
    ∀ n : ℕ, ∑ s ∈ range n, ∑ r ∈ range K, g (K * s + r) = ∑ i ∈ range (K * n), g i
  | 0 => by simp
  | n + 1 => by
    rw [Finset.sum_range_succ, sum_range_blocks g K n, Nat.mul_succ, Finset.sum_range_add]

/-- The same with the inner index and the whole index drawn from `Fin`: if `g` at the value of an index below
    `N = K * n` is `f` there, the blockwise sums of `g` add up to the sum of `f`. -/
theorem sum_blocks_eq_sum_fin (K n N : ℕ) (hN : N = K * n) (f : Fin N → M) (g : ℕ → M)
    (hg : ∀ i : Fin N, g i.val = f i) :
    ∑ s ∈ range n, ∑ r : Fin K, g (K * s + r.val) = ∑ i : Fin N, f i := by
  subst hN
  have inner : ∀ s, ∑ r : Fin K, g (K * s + r.val) = ∑ r ∈ range K, g (K * s + r) :=
    fun s => (Fin.sum_univ_eq_sum_range (fun r => g (K * s + r)) K)
  rw [Finset.sum_congr rfl (fun s _ => inner s), sum_range_blocks g K n,
    ← Fin.sum_univ_eq_sum_range g (K * n)]
  exact Finset.sum_congr rfl fun i _ => hg i

end BlockedSum
-- ==== Proof.Spec.lean ====
/-
  What both programs compute, as one function of the four argument arrays: a linear layer whose weight is switched on
  and off entry by entry by an integer mask, minus a bias,

      result[b, o] = (Σ_i x[b, i] · (w[o, i] · float(mask[o, i]))) − bias[o]        (b, o, i < 4096),

  on the extended reals. The kernel reaches the contraction in eight slabs of 512 consecutive `i`, adding each
  slab's partial sum into an accumulator that starts at zero; `blocked_contraction` says that this is the whole
  contraction. Only associativity and commutativity of addition and `0 + a = a` are used, so no finiteness of the
  inputs is needed.
-/
import Idealize.ShloMosaic.PureOps.Ideal
import Idealize.ShloMosaic.Lib.ValueIdx
import proofs.«130774_j4449586118868_1_alg».proof.Proof.LibBlockedSum

noncomputable section

namespace MaskedLinear

open Idealize.ShloMosaic Idealize.ShloMosaic.ValueIdx

/-- The 4096 × 4096 arrays (`x`, the weight, the mask, the result) and the bias row. -/
abbrev Sq : Shape := ⟨2, ![4096, 4096]⟩
abbrev Row : Shape := ⟨1, ![4096]⟩

/-- The effective weight: the weight times the mask read as a number, entry by entry. -/
def weff (w : FVec Ideal Sq .f32) (mk : IVec Sq 32) : FVec Ideal Sq .f32 := mulf w (sitofp .f32 mk)

/-- One product of the contraction for output entry `(b, o)`. -/
def term (x w : FVec Ideal Sq .f32) (mk : IVec Sq 32) (b o : Fin 4096) (i : Fin 4096) : EReal :=
  x (ix2 b i) * weff w mk (ix2 o i)

/-- The result array. -/
def result (x w : FVec Ideal Sq .f32) (bias : FVec Ideal Row .f32) (mk : IVec Sq 32) : FVec Ideal Sq .f32 :=
  fun j => (∑ i : Fin 4096, term x w mk (j 0) (j 1) i) - bias (ix1 (j 1))

/-- The same product with the contraction index a natural number (zero past the end): what the slab at offset
    `512 * s` adds, at its local index `r`, is `termN … (512 * s + r)`. -/
def termN (x w : FVec Ideal Sq .f32) (mk : IVec Sq 32) (b o : Fin 4096) (n : ℕ) : EReal :=
  if h : n < 4096 then term x w mk b o ⟨n, h⟩ else 0

theorem termN_val (x w : FVec Ideal Sq .f32) (mk : IVec Sq 32) (b o : Fin 4096) (i : Fin 4096) :
    termN x w mk b o i.val = term x w mk b o i := by
  unfold termN; rw [dif_pos i.isLt]

/-- Zero plus the eight slabs' partial sums is the whole contraction. -/
theorem blocked_contraction (x w : FVec Ideal Sq .f32) (mk : IVec Sq 32) (b o : Fin 4096) :
    (0 : EReal) + ∑ s ∈ Finset.range 8, ∑ r : Fin 512, termN x w mk b o (512 * s + r.val)
      = ∑ i : Fin 4096, term x w mk b o i := by
  rw [zero_add]
  exact BlockedSum.sum_blocks_eq_sum_fin 512 8 4096 (by norm_num) _ _ (termN_val x w mk b o)

end MaskedLinear

end
-- ==== Proof.KernelValue.lean ====
/-
  The kernel's result array, on the extended reals. For the output tile in tile-row `t / 32` and tile-column
  `t / 8 % 4` the eight grid points `t` with `t % 8 = 0, …, 7` run one contraction:

    * at `t % 8 = 0` the accumulator becomes `0 + slab(t)`, at every later point `acc + slab(t)`, where `slab(t)` at
      entry (p, q) is the sum over the 512 columns `512·(t%8) + r` of `x[b, ·] · (w[o, ·] · float(mask[o, ·]))`
      with `b = 1024·(t/32) + p` and `o = 1024·(t/8 % 4) + q`;
    * so after point `t` the accumulator holds, at (p, q), zero plus the slabs `0 … t % 8` of that contraction
      (`acc_eq`, by induction on the point);
    * the point with `t % 8 = 7` writes back `acc − bias[o]`, the only write-back of the tile, and the eight slabs are the
      whole contraction (`MaskedLinear.blocked_contraction`): the tile of `MaskedLinear.result`.

  The sixteen tiles cover the array, so the array ends at `MaskedLinear.result` of the four arguments.
-/
import proofs.«130774_j4449586118868_1_alg».proof.Proof.Gen.KernelIdeal.Value
import proofs.«130774_j4449586118868_1_alg».proof.Proof.Pieces
import proofs.«130774_j4449586118868_1_alg».proof.Proof.Payloads
import proofs.«130774_j4449586118868_1_alg».proof.Proof.Blocks
import proofs.«130774_j4449586118868_1_alg».proof.Proof.Spec

noncomputable section

namespace Cert.KernelIdeal.Contraction

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Names, at their literal types -/

/-- The four argument arrays as launched. -/
abbrev xArr (c : Dev nD) : FVec Ideal MaskedLinear.Sq .f32 := m ((c : Thread nD τ).loc main_arg0)
abbrev wArr (c : Dev nD) : FVec Ideal MaskedLinear.Sq .f32 := m ((c : Thread nD τ).loc main_arg1)
abbrev biasArr (c : Dev nD) : FVec Ideal MaskedLinear.Row .f32 := m ((c : Thread nD τ).loc main_arg2)
abbrev maskArr (c : Dev nD) : IVec MaskedLinear.Sq 32 := m ((c : Thread nD τ).loc main_arg3)

/-- The result both programs are to end with. -/
abbrev target (c : Dev nD) : FVec Ideal MaskedLinear.Sq .f32 :=
  MaskedLinear.result (xArr m c) (wArr m c) (biasArr m c) (maskArr m c)

/-- The four input blocks at a point. -/
abbrev xBlk (c : Dev nD) (t : Fin cfg0.N) : FVec Ideal S1024x512 .f32 := iblk m c 0 t
abbrev wBlk (c : Dev nD) (t : Fin cfg0.N) : FVec Ideal S1024x512 .f32 := iblk m c 1 t
abbrev maskBlk (c : Dev nD) (t : Fin cfg0.N) : IVec S1024x512 32 := iblk m c 2 t
abbrev biasBlk (c : Dev nD) (t : Fin cfg0.N) : FVec Ideal S1x1024 .f32 := iblk m c 3 t

/-! ## One point's slab is a stretch of the whole contraction -/

theorem slab_eq (c : Dev nD) (n : ℕ) (h : n < cfg0.N) (p q : Fin 1024) (b o : Fin 4096)
    (hb : b.val = 1024 * (n / 32) + p.val) (ho : o.val = 1024 * (n / 8 % 4) + q.val) :
    Payloads.slab (xBlk m c ⟨n, h⟩) (wBlk m c ⟨n, h⟩) (maskBlk m c ⟨n, h⟩) p q
      = ∑ r : Fin 512, MaskedLinear.termN (xArr m c) (wArr m c) (maskArr m c) b o (512 * (n % 8) + r.val) := by
  unfold Payloads.slab
  refine Finset.sum_congr rfl fun r _ => ?_
  have hlt : 512 * (n % 8) + r.val < 4096 := by have := r.isLt; omega
  rw [show MaskedLinear.termN (xArr m c) (wArr m c) (maskArr m c) b o (512 * (n % 8) + r.val)
      = MaskedLinear.term (xArr m c) (wArr m c) (maskArr m c) b o ⟨_, hlt⟩ from by
    unfold MaskedLinear.termN; rw [dif_pos hlt]]
  rw [show xBlk m c ⟨n, h⟩ (ix2 p r) = xArr m c (ix2 b ⟨_, hlt⟩) from Blocks.x_block m c ⟨n, h⟩ p r b ⟨_, hlt⟩ hb rfl,
    show wBlk m c ⟨n, h⟩ (ix2 q r) = wArr m c (ix2 o ⟨_, hlt⟩) from Blocks.w_block m c ⟨n, h⟩ q r o ⟨_, hlt⟩ ho rfl,
    show maskBlk m c ⟨n, h⟩ (ix2 q r) = maskArr m c (ix2 o ⟨_, hlt⟩) from Blocks.mask_block m c ⟨n, h⟩ q r o ⟨_, hlt⟩ ho rfl]
  rfl

/-! ## The accumulator, point by point -/

/-- At the first point of a contraction the accumulator is reset and takes the first slab. -/
theorem acc_reset (c : Dev nD) (n : ℕ) (h : n < cfg0.N) (h0 : n % 8 = 0) :
    (outsAt0 m c n h).2 = k0_pay2 (F := Ideal) (wBlk m c ⟨n, h⟩) (maskBlk m c ⟨n, h⟩) (xBlk m c ⟨n, h⟩) (k0_pay1 (F := Ideal)) := by
  have h1 : ¬n % 8 = 7 := by omega
  rw [outsAt0_A m c ⟨n, h⟩ h0 h1]
  dsimp only
  exact Pieces.acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
    ((hcond0_0 ⟨n, h⟩).mpr h0) (fun hh => h1 ((hcond0_1 ⟨n, h⟩).mp hh)) (xBlk m c ⟨n, h⟩) (wBlk m c ⟨n, h⟩) (maskBlk m c ⟨n, h⟩) (biasBlk m c ⟨n, h⟩)

/-- At every other point it takes that point's slab on top of what the point before left. -/
theorem acc_step (c : Dev nD) (n : ℕ) (h : n < cfg0.N) (h0 : ¬n % 8 = 0) :
    (outsAt0 m c n h).2 = k0_pay2 (F := Ideal) (wBlk m c ⟨n, h⟩) (maskBlk m c ⟨n, h⟩) (xBlk m c ⟨n, h⟩) (outsAt0 m c (n - 1) (Nat.lt_of_le_of_lt (Nat.sub_le _ _) h)).2 := by
  by_cases h1 : n % 8 = 7
  · rw [outsAt0_C m c ⟨n, h⟩ h0 h1]
    dsimp only
    exact Pieces.acc_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
      (fun hh => h0 ((hcond0_0 ⟨n, h⟩).mp hh)) ((hcond0_1 ⟨n, h⟩).mpr h1) (xBlk m c ⟨n, h⟩) (wBlk m c ⟨n, h⟩) (maskBlk m c ⟨n, h⟩) (biasBlk m c ⟨n, h⟩) (outsAt0 m c (n - 1) (Nat.lt_of_le_of_lt (Nat.sub_le _ _) h)).2
  · rw [outsAt0_B m c ⟨n, h⟩ h0 h1]
    dsimp only
    exact Pieces.acc_middle (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
      (fun hh => h0 ((hcond0_0 ⟨n, h⟩).mp hh)) (fun hh => h1 ((hcond0_1 ⟨n, h⟩).mp hh)) (xBlk m c ⟨n, h⟩) (wBlk m c ⟨n, h⟩) (maskBlk m c ⟨n, h⟩) (biasBlk m c ⟨n, h⟩) (outsAt0 m c (n - 1) (Nat.lt_of_le_of_lt (Nat.sub_le _ _) h)).2

/-- At the last point of a contraction the output block is the accumulator just left, minus the bias row. -/
theorem out_last (c : Dev nD) (n : ℕ) (h : n < cfg0.N) (h0 : ¬n % 8 = 0) (h1 : n % 8 = 7) :
    (outsAt0 m c n h).1 = k0_pay3 (F := Ideal) ((outsAt0 m c n h).2) (biasBlk m c ⟨n, h⟩) := by
  rw [outsAt0_C m c ⟨n, h⟩ h0 h1]
  dsimp only
  exact (Pieces.out_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
      (fun hh => h0 ((hcond0_0 ⟨n, h⟩).mp hh)) ((hcond0_1 ⟨n, h⟩).mpr h1) (xBlk m c ⟨n, h⟩) (wBlk m c ⟨n, h⟩) (maskBlk m c ⟨n, h⟩) (biasBlk m c ⟨n, h⟩) (outsAt0 m c (n - 1) (Nat.lt_of_le_of_lt (Nat.sub_le _ _) h)).2).trans
    (congrArg (fun a => k0_pay3 (F := Ideal) a (biasBlk m c ⟨n, h⟩))
      (Pieces.acc_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
        (fun hh => h0 ((hcond0_0 ⟨n, h⟩).mp hh)) ((hcond0_1 ⟨n, h⟩).mpr h1) (xBlk m c ⟨n, h⟩) (wBlk m c ⟨n, h⟩) (maskBlk m c ⟨n, h⟩) (biasBlk m c ⟨n, h⟩) (outsAt0 m c (n - 1) (Nat.lt_of_le_of_lt (Nat.sub_le _ _) h)).2).symm)

/-- Adding the next slab to zero plus the slabs so far. -/
theorem add_next_slab (f : ℕ → EReal) (a k : ℕ) (g : EReal) (hk : a + 1 = k) (hg : g = f k) :
    (0 + ∑ s ∈ Finset.range (a + 1), f s) + g = 0 + ∑ s ∈ Finset.range (k + 1), f s := by
  subst hk hg
  rw [Finset.sum_range_succ _ (a + 1), add_assoc]

/-- After point `n` the accumulator holds, at (p, q), zero plus the slabs `0 … n % 8` of the contraction for the
    output entry (b, o) that (p, q) is in the tile of `n`. -/
theorem acc_eq (c : Dev nD) (n : ℕ) : ∀ (h : n < cfg0.N) (p q : Fin 1024) (b o : Fin 4096),
    b.val = 1024 * (n / 32) + p.val → o.val = 1024 * (n / 8 % 4) + q.val →
    (outsAt0 m c n h).2 (ix2 p q)
      = 0 + ∑ s ∈ Finset.range (n % 8 + 1), ∑ r : Fin 512,
          MaskedLinear.termN (xArr m c) (wArr m c) (maskArr m c) b o (512 * s + r.val) := by
  induction n using Nat.strong_induction_on with
  | _ n ih =>
    intro h p q b o hb ho
    by_cases h0 : n % 8 = 0
    · rw [acc_reset m c n h h0]
      refine (Payloads.accumulate_apply (wBlk m c ⟨n, h⟩) (maskBlk m c ⟨n, h⟩) (xBlk m c ⟨n, h⟩) (k0_pay1 (F := Ideal)) p q).trans ?_
      rw [Payloads.reset_apply, slab_eq m c n h p q b o hb ho, h0, Finset.sum_range_one]
    · rw [acc_step m c n h h0]
      refine (Payloads.accumulate_apply (wBlk m c ⟨n, h⟩) (maskBlk m c ⟨n, h⟩) (xBlk m c ⟨n, h⟩) (outsAt0 m c (n - 1) (Nat.lt_of_le_of_lt (Nat.sub_le _ _) h)).2 p q).trans ?_
      rw [ih (n - 1) (by omega) (Nat.lt_of_le_of_lt (Nat.sub_le _ _) h) p q b o (by omega) (by omega),
        slab_eq m c n h p q b o hb ho]
      exact add_next_slab (fun s => ∑ r : Fin 512, MaskedLinear.termN (xArr m c) (wArr m c) (maskArr m c) b o (512 * s + r.val))
        ((n - 1) % 8) (n % 8) _ (by omega) rfl

/-! ## What a write-back writes, and the whole array -/

/-- Entry `j` of the block written back at a point with `t % 8 = 7` is the target at the array entry (b, o) it lands on. -/
theorem flush_entry (c : Dev nD) (t : Fin cfg0.N) (h7 : t.val % 8 = 7) (j : S1024x1024.Idx) (b o : Fin 4096)
    (hb : b.val = 1024 * (t.val / 32) + (j 0).val) (ho : o.val = 1024 * (t.val / 8 % 4) + (j 1).val) :
    (outsAt0 m c t.val t.isLt).1 j = target m c (ix2 b o) := by
  have h0 : ¬t.val % 8 = 0 := by omega
  have h8 : t.val % 8 + 1 = 8 := by omega
  obtain ⟨p, q, rfl⟩ : ∃ (p q : Fin 1024), j = ix2 p q := ⟨j 0, j 1, eq_ix2 j⟩
  rw [out_last m c t.val t.isLt h0 h7]
  refine (Payloads.finish_apply ((outsAt0 m c t.val t.isLt).2) (biasBlk m c t) p q).trans ?_
  rw [acc_eq m c t.val t.isLt p q b o hb ho, h8, MaskedLinear.blocked_contraction,
    show biasBlk m c t (ix2 0 q) = biasArr m c (ix1 o) from Blocks.bias_block m c t q o ho]
  rfl

/-- What a write-back writes is the target's block. -/
theorem flushed_eq (c : Dev nD) (t : Fin cfg0.N) (hf : (cfg0.win 4).flush t = true) :
    (dats m 0 c).flushed 4 t = ((cfg0.win 4).blk t).view.read (Elt Ideal) (target m c) := by
  have h7 : t.val % 8 = 7 := (flush0_4 t).mp hf
  rw [Value.flushed4 m c t]
  funext j
  exact (flush_entry m c t h7 j ((((cfg0.win 4).blk t).view.emb j) 0) ((((cfg0.win 4).blk t).view.emb j) 1)
    (by show win0_4.index t 0 * 1024 + 1 * (j 0).val = 1024 * (t.val / 32) + (j 0).val
        rw [(Blocks.index_out t).1]; omega)
    (by show win0_4.index t 1 * 1024 + 1 * (j 1).val = 1024 * (t.val / 8 % 4) + (j 1).val
        rw [(Blocks.index_out t).2]; omega)).trans
    (congrArg (target m c) (eq_ix2 (((cfg0.win 4).blk t).view.emb j)).symm)

/-- An index of the result array is in point `t`'s output block iff each coordinate is in the block's range. -/
theorem mem_out_block (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- Every index of the result array is in the block some last point of a contraction writes back. -/
theorem cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 128 := N_0
  refine ⟨⟨32 * ((i 0).val / 1024) + 8 * ((i 1).val / 1024) + 7, by rw [hN]; omega⟩, ?_, ?_⟩
  · exact (flush0_4 _).mpr (by show (32 * ((i 0).val / 1024) + 8 * ((i 1).val / 1024) + 7) % 8 = 7; omega)
  · rw [mem_out_block]
    intro a
    match a with
    | ⟨0, _⟩ =>
      show win0_4.index _ 0 * 1024 ≤ (i 0).val ∧ (i 0).val < win0_4.index _ 0 * 1024 + 1024
      rw [(Blocks.index_out _).1]
      show (32 * ((i 0).val / 1024) + 8 * ((i 1).val / 1024) + 7) / 32 * 1024 ≤ (i 0).val ∧ (i 0).val < (32 * ((i 0).val / 1024) + 8 * ((i 1).val / 1024) + 7) / 32 * 1024 + 1024
      omega
    | ⟨1, _⟩ =>
      show win0_4.index _ 1 * 1024 ≤ (i 1).val ∧ (i 1).val < win0_4.index _ 1 * 1024 + 1024
      rw [(Blocks.index_out _).2]
      show (32 * ((i 0).val / 1024) + 8 * ((i 1).val / 1024) + 7) / 8 % 4 * 1024 ≤ (i 1).val ∧ (i 1).val < (32 * ((i 0).val / 1024) + 8 * ((i 1).val / 1024) + 7) / 8 % 4 * 1024 + 1024
      omega

/-- The result array after the run. -/
theorem final (c : Dev nD) : (dats m 0 c).arrAt 4 cfg0.N = target m c :=
  (dats m 0 c).arrAt_eq_of_cover 4 (target m c) (flushed_eq m c) cover

/-- The kernel's run: the result array at the target, the arguments unchanged. -/
theorem run : θ_run defs (onTc (τ := τ) (main (F := Ideal))) ⟨m, fun _ => 0, ρ⟩ fun r => ∀ c : Dev nD,
      r.2.mem ((c : Thread nD τ).loc main_v1) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Contraction

end
-- ==== Proof.RefValue.lean ====
/-
  The reference, read at an index. Its six host operations compose to

      (Σ_k x[b, k] · (w[o, k] · float(mask[o, k]))) − bias[o]

  at output entry (b, o): the conversion and the product are entrywise, the `dot_general` contracts the second axis
  of both operands, the two broadcasts carry `bias[o]` to every row. That is the specification's `result`, term by
  term; no law of arithmetic is used.
-/
import proofs.«130774_j4449586118868_1_alg».proof.Proof.Gen.ReferenceIdeal.Read
import proofs.«130774_j4449586118868_1_alg».proof.Proof.Spec

noncomputable section

namespace Cert.ReferenceIdeal.RefValue

open Cert.ReferenceIdeal Cert.ReferenceIdeal.Read Idealize.ShloMosaic Idealize.ShloMosaic.ValueIdx

/-- The left operand of the contraction is read at row `b` of `x`, column `k`. -/
theorem lidx_eq (i : S4096x4096.Idx) (k : Fin 4096) : lidx_main_v2 i k = ix2 (i 0) k :=
  funext fun a => Fin.ext (by match a with | ⟨0, _⟩ => rfl | ⟨1, _⟩ => rfl)

/-- The right operand at row `o` of the effective weight, column `k`. -/
theorem ridx_eq (i : S4096x4096.Idx) (k : Fin 4096) : ridx_main_v2 i k = ix2 (i 1) k :=
  funext fun a => Fin.ext (by match a with | ⟨0, _⟩ => rfl | ⟨1, _⟩ => rfl)

/-- The two broadcasts read the bias at the output's column. -/
theorem bidx_eq (i : S4096x4096.Idx) : idx_main_v3 (idx_main_v4 i) = ix1 (i 1) :=
  funext fun a => Fin.ext (by match a with | ⟨0, _⟩ => rfl)

/-- The reference's last stage is the specification's result. -/
theorem stage_eq_result (x0 x1 : (⟨S4096x4096, .f32⟩ : BufTy).Contents (Elt Ideal))
    (x2 : (⟨S4096, .f32⟩ : BufTy).Contents (Elt Ideal)) (x3 : (⟨S4096x4096, .i32⟩ : BufTy).Contents (Elt Ideal)) :
    val_main_v5 (F := Ideal) x0 x1 x2 x3 = MaskedLinear.result x0 x1 x2 x3 := by
  funext i
  rw [val_main_v5_apply, val_main_v2_apply, val_main_v4_apply, val_main_v3_apply, bidx_eq]
  unfold MaskedLinear.result MaskedLinear.term MaskedLinear.weff
  simp only [lidx_eq, ridx_eq]
  rfl

end Cert.ReferenceIdeal.RefValue

end
-- ==== Proof.lean ====
/-
  A linear layer with an entrywise 0/1-style integer mask on its weight, minus a bias:

      y[b, o] = (Σ_i x[b, i] · (w[o, i] · float(mask[o, i]))) − bias[o],        b, o, i < 4096.

  The kernel tiles the output into sixteen 1024 × 1024 tiles and, for each, walks the contraction in eight slabs of 512
  columns, adding each slab's partial product (formed on the matrix unit from operands narrowed to bf16) into an f32
  accumulator that is zeroed at the first slab; after the eighth it subtracts the bias row and writes the tile back. The
  reference converts the mask, multiplies, contracts the whole axis at once and subtracts the broadcast bias.

  On the extended reals the narrowing is the identity and every operation is exact, so both compute the displayed
  formula: the kernel's `0 + slab₀ + … + slab₇` is the whole sum by associativity of addition (`Proof/Spec.lean`,
  `Proof/LibBlockedSum.lean`) — no distributivity, hence no use of the inputs' finiteness. The kernel's side is
  `Proof/KernelValue.lean` (over `Pieces`, `Payloads`, `Blocks`), the reference's `Proof/RefValue.lean`. No operation
  is rewritten on the way to the extended reals, so the kernel read there is its own text and `preserves` has no conjunct.
-/
import proofs.«130774_j4449586118868_1_alg».proof.Defs
import proofs.«130774_j4449586118868_1_alg».proof.Proof.Gen.Kernel
import proofs.«130774_j4449586118868_1_alg».proof.Proof.Gen.Kernel.Frame
import proofs.«130774_j4449586118868_1_alg».proof.Proof.Gen.KernelIdeal
import proofs.«130774_j4449586118868_1_alg».proof.Proof.Gen.KernelIdeal.Frame
import proofs.«130774_j4449586118868_1_alg».proof.Proof.Gen.KernelIdeal.Value
import proofs.«130774_j4449586118868_1_alg».proof.Proof.Gen.ReferenceIdeal
import proofs.«130774_j4449586118868_1_alg».proof.Proof.Gen.ReferenceIdeal.Run
import proofs.«130774_j4449586118868_1_alg».proof.Proof.Gen.ReferenceIdeal.Read
import proofs.«130774_j4449586118868_1_alg».proof.Proof.Gen.Pre_finite_inputs
import proofs.«130774_j4449586118868_1_alg».proof.Proof.KernelValue
import proofs.«130774_j4449586118868_1_alg».proof.Proof.RefValue
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is six host operations in a row: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in passing to the extended reals. -/
theorem preserves : Cert.preserves_Kernel_KernelIdeal := trivial

/-- Both programs end with `MaskedLinear.result` of arguments that agree. -/
theorem algebraic : Cert.algebraic_KernelIdeal_ReferenceIdeal := by
  intro m ρ m' ρ' _ hagree
  refine ⟨fun c => Cert.KernelIdeal.Contraction.target m c, Cert.KernelIdeal.Contraction.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.stage_eq_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
